-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S1600000 .f32) (main_arg2 : IVec S1600000 32) (main_arg3 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  main_v8
-- ==== Kernel.lean ====
abbrev S100000x128 : Shape := ⟨2, ![100000, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S16000x128 : Shape := ⟨2, ![16000, 128]⟩
abbrev S16000x1 : Shape := ⟨2, ![16000, 1]⟩
abbrev S10000x128 : Shape := ⟨2, ![10000, 128]⟩

abbrev nBuf : Space → Nat
  | .hbm => 20
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1600000x128, .f32⟩
  | .hbm, ⟨13, _⟩ => ⟨S1600000x1, .f32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S100000x128, .f32⟩
  | .local _ .vmem, ⟨0, _⟩ => ⟨S16000x128, .f32⟩
  | .local _ .vmem, ⟨1, _⟩ => ⟨S16000x128, .f32⟩
  | .local _ .vmem, ⟨2, _⟩ => ⟨S16000x1, .f32⟩
  | .local _ .vmem, ⟨3, _⟩ => ⟨S16000x1, .f32⟩
  | .local _ .vmem, ⟨4, _⟩ => ⟨S16000x128, .f32⟩
  | .local _ .vmem, ⟨5, _⟩ => ⟨S16000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x128 : S16000x1.Broadcasts S16000x128
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S1600000x128.size a
  hwx0_0 : ∀ i : grid0.Coords, EltTy.bits .f32 = 32 ∨ (Rect.block (s := S1600000x128) S16000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x1.size a ≤ S1600000x1.size a
  hwx0_1 : ∀ i : grid0.Coords, EltTy.bits .f32 = 32 ∨ (Rect.block (s := S1600000x1) S16000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x128.size a ≤ S1600000x128.size a
  hwx0_2 : ∀ i : grid0.Coords, EltTy.bits .f32 = 32 ∨ (Rect.block (s := S1600000x128) S16000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v6) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S16000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S1600000x1, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S1600000x128, .f32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Combine.lean ====
/- The combine region as ONE function of its two input arrays. Its grid has ten points; point `t` reads rows
   `10000 t … 10000 t + 9999` of the embedding table and of the segment sums and writes the same rows of the
   result, each entry `(e + 3 s) · ¼` of the two entries at the same place. The ten row blocks tile the
   100000 rows, so after the region the result array holds that entrywise function of the two arrays as the
   region found them. -/
import proofs.«182069_j59090160058391_1_alg».proof.Proof.Gen.KernelIdeal.Frame
import Idealize.ShloMosaic.Lib.Pipeline.Value
import Idealize.ShloMosaic.Lib.ValueIdx

set_option maxRecDepth 16384

noncomputable section

namespace Cert.KernelIdeal.Combine

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
-- the TensorCore's buffer contents when the region is entered, a parameter
variable (V : (c : Dev nD) → (b : Ref sig .tc) → Buf (Elt F) ((c : Thread nD τ).loc b))

/-- The two zero offsets of a whole-block access, as the constant function. -/
theorem hz : (![0, 0] : Fin 2 → Nat) = fun _ => 0 := funext fun a => by fin_cases a <;> rfl

/-- Entry by entry: the table's entry plus three times the segment sum's, times a quarter. -/
abbrev combine (a s : S100000x128.Idx → Elt F .f32) : S100000x128.Idx → Elt F .f32 :=
  fun i => FloatOps.mulf (FloatOps.addf (a i) (FloatOps.mulf (Scalar.ofBits .f32 0x40400000#32) (s i))) (Scalar.ofBits .f32 0x3E800000#32)

/-- The body's stored value is that expression of its two loaded blocks, entry by entry. -/
theorem pay_eq (x0 x1 : Vec F S10000x128 .f32) :
    k1_pay1 x0 x1 = fun j => FloatOps.mulf (FloatOps.addf (x0 j) (FloatOps.mulf (Scalar.ofBits .f32 0x40400000#32) (x1 j))) (Scalar.ofBits .f32 0x3E800000#32) := by
  unfold k1_pay1
  simp only [shapeCast_self]
  rfl

/-- All three windows sit on row block `t`, column block 0, and the row block is one of the ten. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2) :=
  (by decide +kernel : ∀ t : Fin grid1.N, _)

/-- Every one of the ten row blocks is some point's. -/
theorem idx_onto : ∀ q : Fin 10, ∃ t : Fin cfg1.N, win1_2.index t = ![q.val, 0] :=
  (by decide +kernel : ∀ q : Fin 10, ∃ t : Fin grid1.N, win1_2.index t = ![q.val, 0])

/-- What point `t` writes back is block `t` of `combine` of the two arrays as the region finds them. -/
theorem flushed_eq (c : Dev nD) (t : Fin cfg1.N) :
    (dat1 V c).flushed 2 t = ((cfg1.win 2).blk t).view.read (Elt F) (combine (V c main_arg0) (V c main_v11)) := by
  show (cfg1.win 2).cut (grid1.coords t) ((dat1 V c).after 2 t) = _
  rw [after1_2]
  unfold out1_2
  rw [View.canon_unit_zero hz]
  simp only [View.ld_unit_zero (S := S10000x128) hz]
  rw [pay_eq]
  obtain ⟨e0, e1, e2, e3⟩ := idx_facts t
  funext j
  show FloatOps.mulf (FloatOps.addf (V c main_arg0 (((cfg1.win 0).blk t).view.emb j)) (FloatOps.mulf _ (V c main_v11 (((cfg1.win 1).blk t).view.emb j)))) _
     = FloatOps.mulf (FloatOps.addf (V c main_arg0 (((cfg1.win 2).blk t).view.emb j)) (FloatOps.mulf _ (V c main_v11 (((cfg1.win 2).blk t).view.emb j)))) _
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 128 + 1 * (j 1).val = win1_2.index t (1 : Fin 2) * 128 + 1 * (j 1).val; omega
  rw [h0, h1]

/-- An index of the result is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v12).slice (win1_2.rect t)).set ↔ _
  rw [View.set_slice_whole, Rect.mem_set_unit]
  exact Iff.rfl

/-- Every index of the result lies in some written-back block: row `r` is in row block `r / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region: `combine` of the two input arrays as the region found them. -/
theorem final (c : Dev nD) : (dat1 V c).arrAt 2 cfg1.N = combine (V c main_arg0) (V c main_v11) :=
  (dat1 V c).arrAt_eq_of_cover 2 (combine (V c main_arg0) (V c main_v11)) (fun t _ => flushed_eq V c t) cover

end Cert.KernelIdeal.Combine

end
-- ==== Proof.Weighted.lean ====
/- The product region as ONE function of its two input arrays. Its grid has a hundred points; point `t` reads
   rows `16000 t … 16000 t + 15999` of the gathered rows (128 wide) and of the edge weights (one wide) and
   writes the same rows of the product, each entry the gathered entry times its row's weight. The hundred row
   blocks tile the 1600000 rows, so after the region the product array holds that function of the two arrays
   as the region found them. -/
import proofs.«182069_j59090160058391_1_alg».proof.Proof.Gen.KernelIdeal.Frame
import Idealize.ShloMosaic.Lib.Pipeline.Value
import Idealize.ShloMosaic.Lib.ValueIdx

set_option maxRecDepth 16384

noncomputable section

namespace Cert.KernelIdeal.Weighted

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]
-- the TensorCore's buffer contents when the region is entered, a parameter
variable (V : (c : Dev nD) → (b : Ref sig .tc) → Buf (Elt F) ((c : Thread nD τ).loc b))

/-- The two zero offsets of a whole-block access, as the constant function. -/
theorem hz : (![0, 0] : Fin 2 → Nat) = fun _ => 0 := funext fun a => by fin_cases a <;> rfl

/-- The weight column's index for edge row `r`. -/
abbrev rowIdx (r : Fin 1600000) : S1600000x1.Idx := ix2 r (0 : Fin 1)

/-- Entry by entry: the gathered row's entry times that edge's weight. -/
abbrev weighted (g : S1600000x128.Idx → Elt F .f32) (v : S1600000x1.Idx → Elt F .f32) : S1600000x128.Idx → Elt F .f32 :=
  fun i => FloatOps.mulf (g i) (v (rowIdx ⟨(i 0).val, idx2_lt0 i⟩))

/-- `weighted` at an index reads the weight at any index of the same row in the one column. -/
theorem weighted_apply (g : S1600000x128.Idx → Elt F .f32) (v : S1600000x1.Idx → Elt F .f32) (i : S1600000x128.Idx)
    (k : S1600000x1.Idx) (hk0 : (k 0).val = (i 0).val) (hk1 : (k 1).val = 0) :
    weighted g v i = FloatOps.mulf (g i) (v k) := by
  show FloatOps.mulf (g i) (v (rowIdx ⟨(i 0).val, idx2_lt0 i⟩)) = _
  refine congrArg (FloatOps.mulf (g i)) (congrArg v ?_)
  funext a; apply Fin.ext
  match a with
  | ⟨0, _⟩ => exact hk0.symm
  | ⟨1, _⟩ => exact hk1.symm

/-- The body's stored value at an entry: the first block's entry times the second block's entry of the same
    row (the one-wide block is broadcast along the lanes). -/
theorem pay_apply (x0 : Vec F S16000x128 .f32) (x1 : Vec F S16000x1 .f32) (j : S16000x128.Idx) (k : S16000x1.Idx)
    (hk0 : (k 0).val = (j 0).val) (hk1 : (k 1).val = 0) :
    k0_pay1 x0 x1 j = FloatOps.mulf (x0 j) (x1 k) := by
  unfold k0_pay1
  simp only [shapeCast_self]
  show FloatOps.mulf (x0 j) (broadcastTo S16000x128 x1 broadcasts_S16000x1_S16000x128 j) = _
  refine congrArg (FloatOps.mulf (x0 j)) ?_
  refine broadcastTo_apply x1 _ j k (fun a => ?_)
  match a with
  | ⟨0, _⟩ => show (k 0).val = if (16000 : Nat) = 1 then 0 else (j 0).val; rw [if_neg (by decide), hk0]
  | ⟨1, _⟩ => show (k 1).val = if (1 : Nat) = 1 then 0 else (j 1).val; rw [if_pos rfl, hk1]

/-- All three windows sit on row block `t`, and on column block 0. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0 :=
  (by decide +kernel : ∀ t : Fin grid0.N, _)

/-- Every one of the hundred row blocks is some point's. -/
theorem idx_onto : ∀ q : Fin 100, ∃ t : Fin cfg0.N, win0_2.index t = ![q.val, 0] :=
  (by decide +kernel : ∀ q : Fin 100, ∃ t : Fin grid0.N, win0_2.index t = ![q.val, 0])

/-- What point `t` writes back is block `t` of `weighted` of the two arrays as the region finds them. -/
theorem flushed_eq (c : Dev nD) (t : Fin cfg0.N) :
    (dat0 V c).flushed 2 t = ((cfg0.win 2).blk t).view.read (Elt F) (weighted (V c main_v6) (V c main_v7)) := by
  show (cfg0.win 2).cut (grid0.coords t) ((dat0 V c).after 2 t) = _
  rw [after0_2]
  unfold out0_2
  rw [View.canon_unit_zero hz]
  simp only [View.ld_unit_zero (S := S16000x128) hz, View.ld_unit_zero (S := S16000x1) hz]
  obtain ⟨e0, e1, e2, e3⟩ := idx_facts t
  funext j
  have h0 : ((cfg0.win 0).blk t).view.emb j = ((cfg0.win 2).blk t).view.emb j := by
    funext a; apply Fin.ext
    match a with
    | ⟨0, _⟩ => show win0_0.index t (0 : Fin 2) * 16000 + 1 * (j 0).val = win0_2.index t (0 : Fin 2) * 16000 + 1 * (j 0).val; omega
    | ⟨1, _⟩ => show win0_0.index t (1 : Fin 2) * 128 + 1 * (j 1).val = win0_2.index t (1 : Fin 2) * 128 + 1 * (j 1).val; omega
  refine (pay_apply (iblk0 V c 0 t) (iblk0 V c 1 t) j (ix2 (⟨(j 0).val, idx2_lt0 j⟩ : Fin 16000) (0 : Fin 1)) rfl rfl).trans ?_
  refine Eq.trans ?_ (weighted_apply (V c main_v6) (V c main_v7) (((cfg0.win 2).blk t).view.emb j)
    (((cfg0.win 1).blk t).view.emb (ix2 (⟨(j 0).val, idx2_lt0 j⟩ : Fin 16000) (0 : Fin 1))) ?_ ?_).symm
  · show FloatOps.mulf (V c main_v6 (((cfg0.win 0).blk t).view.emb j)) _ = FloatOps.mulf (V c main_v6 (((cfg0.win 2).blk t).view.emb j)) _
    rw [h0]
    rfl
  · show win0_1.index t (0 : Fin 2) * 16000 + 1 * (j 0).val = win0_2.index t (0 : Fin 2) * 16000 + 1 * (j 0).val
    omega
  · show win0_1.index t (1 : Fin 2) * 1 + 1 * 0 = 0
    omega

/-- An index of the product is in point `t`'s block iff each coordinate is in the block's range on its axis. -/
theorem mem_blk (t : Fin cfg0.N) (i : S1600000x128.Idx) :
    i ∈ ((cfg0.win 2).blk t).view.set ↔ ∀ a : Fin 2, win0_2.index t a * S16000x128.size a ≤ (i a).val ∧ (i a).val < win0_2.index t a * S16000x128.size a + S16000x128.size a := by
  show i ∈ ((View.whole main_v8).slice (win0_2.rect t)).set ↔ _
  rw [View.set_slice_whole, Rect.mem_set_unit]
  exact Iff.rfl

/-- Every index of the product lies in some written-back block: row `r` is in row block `r / 16000`. -/
theorem cover (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  obtain ⟨t, ht⟩ := idx_onto ⟨(i 0).val / 16000, by omega⟩
  have q0 : win0_2.index t (0 : Fin 2) = (i 0).val / 16000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 16000 ≤ (i 0).val ∧ (i 0).val < win0_2.index t (0 : Fin 2) * 16000 + 16000; omega
  | ⟨1, _⟩ => show win0_2.index t (1 : Fin 2) * 128 ≤ (i 1).val ∧ (i 1).val < win0_2.index t (1 : Fin 2) * 128 + 128; omega

/-- The product array after the region: `weighted` of the two input arrays as the region found them. -/
theorem final (c : Dev nD) : (dat0 V c).arrAt 2 cfg0.N = weighted (V c main_v6) (V c main_v7) :=
  (dat0 V c).arrAt_eq_of_cover 2 (weighted (V c main_v6) (V c main_v7)) (fun t _ => flushed_eq V c t) cover

end Cert.KernelIdeal.Weighted

end
-- ==== Proof.KernelValue.lean ====
/- What the kernel's result array holds after the run, as one term of the four launch arrays. The run's last
   boundary is read backwards: the combine region leaves `combine` of the embedding table and the segment
   sums (its ten row blocks tile the result); the segment sums are the host's scatter-add, into zeros and by
   the row ids, of the product array; the product region leaves `weighted` of the gathered rows and the
   edge weights (its hundred row blocks tile the product); the gathered rows are the host's gather of the
   table at the column ids, a negative id first moved up by the table's height; and no host operation or
   region writes an argument, so each argument is read at its launch contents. -/
import proofs.«182069_j59090160058391_1_alg».proof.Proof.KernelLaunch
import proofs.«182069_j59090160058391_1_alg».proof.Proof.Combine
import proofs.«182069_j59090160058391_1_alg».proof.Proof.Weighted
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The gather's start indices from the column ids: an id below zero is moved up by the table's height, and
    the ids are laid out as one column. -/
abbrev startIdx (cols : (⟨S1600000, .i32⟩ : BufTy).Contents (Elt F)) : (⟨S1600000x1, .i32⟩ : BufTy).Contents (Elt F) :=
  broadcastInDim S1600000x1 ![0] bcast_S1600000_S1600000x1_0
    (select (cmpi .slt cols (broadcastInDim S1600000 ![] bcast_S_S1600000 (constantI S_ 32 0#32)))
      (addi cols (broadcastInDim S1600000 ![] bcast_S_S1600000 (constantI S_ 32 100000#32))) cols)

/-- The product array as a term of the table, the weights and the column ids. -/
abbrev product (emb : (⟨S100000x128, .f32⟩ : BufTy).Contents (Elt F)) (vals : (⟨S1600000, .f32⟩ : BufTy).Contents (Elt F))
    (cols : (⟨S1600000, .i32⟩ : BufTy).Contents (Elt F)) : (⟨S1600000x128, .f32⟩ : BufTy).Contents (Elt F) :=
  Weighted.weighted (Host.gather gather_S100000x128_S1600000x1_S1600000x128_1_0_n_n_0_1_1128 emb (startIdx cols))
    (broadcastInDim S1600000x1 ![0] bcast_S1600000_S1600000x1_0 vals)

/-- The segment sums: the product's rows added into zeros at their row ids. -/
abbrev sums (emb : (⟨S100000x128, .f32⟩ : BufTy).Contents (Elt F)) (vals : (⟨S1600000, .f32⟩ : BufTy).Contents (Elt F))
    (rows cols : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows) (product emb vals cols)

/-- The result: the table and the segment sums combined entry by entry. -/
abbrev result (emb : (⟨S100000x128, .f32⟩ : BufTy).Contents (Elt F)) (vals : (⟨S1600000, .f32⟩ : BufTy).Contents (Elt F))
    (rows cols : (⟨S1600000, .i32⟩ : BufTy).Contents (Elt F)) : (⟨S100000x128, .f32⟩ : BufTy).Contents (Elt F) :=
  Combine.combine emb (sums emb vals rows cols)

/-! ## The product region's entry contents -/

/-- The gathered rows, as the product region finds them. -/
theorem entry_gathered (c : Dev nD) :
    V1 m ρ c main_v6 = Host.gather gather_S100000x128_S1600000x1_S1600000x128_1_0_n_n_0_1_1128
      (m ((c : Thread nD τ).loc main_arg0)) (startIdx (m ((c : Thread nD τ).loc main_arg3))) := by
  show StableHlo.after hostOps0 (W0 m ρ c) (Proc.devRef .tc main_v6) = _
  after_results <;> rfl

/-- The edge weights as one column, as the product region finds them. -/
theorem entry_weights (c : Dev nD) :
    V1 m ρ c main_v7 = broadcastInDim S1600000x1 ![0] bcast_S1600000_S1600000x1_0 (m ((c : Thread nD τ).loc main_arg1)) := by
  show StableHlo.after hostOps0 (W0 m ρ c) (Proc.devRef .tc main_v7) = _
  after_results <;> rfl

/-- The product array at the product region's exit. -/
theorem exit_product (c : Dev nD) :
    W2 m ρ c (Proc.devRef .tc main_v8)
      = product (m ((c : Thread nD τ).loc main_arg0)) (m ((c : Thread nD τ).loc main_arg1)) (m ((c : Thread nD τ).loc main_arg3)) :=
  (W2_arr m ρ c 2).trans ((Weighted.final (V1 m ρ) c).trans
    (congrArg₂ Weighted.weighted (entry_gathered m ρ c) (entry_weights m ρ c)))

/-! ## The arguments, unwritten up to the combine region's entry -/

theorem exit_table (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results <;> rfl)

theorem exit_rows (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

/-! ## The combine region's entry contents -/

/-- The embedding table, as the combine region finds it. -/
theorem entry_table (c : Dev nD) : V3 m ρ c main_arg0 = m ((c : Thread nD τ).loc main_arg0) := by
  show StableHlo.after hostOps1 (W2 m ρ c) (Proc.devRef .tc main_arg0) = _
  after_results
  exact exit_table m ρ c

/-- The segment sums, as the combine region finds them. -/
theorem entry_sums (c : Dev nD) :
    V3 m ρ c main_v11 = sums (m ((c : Thread nD τ).loc main_arg0)) (m ((c : Thread nD τ).loc main_arg1))
      (m ((c : Thread nD τ).loc main_arg2)) (m ((c : Thread nD τ).loc main_arg3)) := by
  show StableHlo.after hostOps1 (W2 m ρ c) (Proc.devRef .tc main_v11) = _
  after_results
  rw [exit_rows m ρ c, exit_product m ρ c]

/-! ## The result array, and the run -/

/-- The result array at the last boundary. -/
theorem last_result (c : Dev nD) :
    W4 m ρ c (Proc.devRef .tc main_v12)
      = result (m ((c : Thread nD τ).loc main_arg0)) (m ((c : Thread nD τ).loc main_arg1))
          (m ((c : Thread nD τ).loc main_arg2)) (m ((c : Thread nD τ).loc main_arg3)) :=
  (W4_arr m ρ c 2).trans ((Combine.final (V3 m ρ) c).trans
    (congrArg₂ Combine.combine (entry_table m ρ c) (entry_sums m ρ c)))

/-- Every weakly fair execution of the kernel's program terminates, nothing faulting, with the result array
    at `result` of the launch arrays and the arguments unchanged. -/
theorem run : θ_run defs (onTc (τ := τ) (main (F := F))) ⟨m, fun _ => 0, ρ⟩ fun r => ∀ c : Dev nD,
      r.2.mem ((c.tc : Thread nD τ).loc main_v12)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (last_result m ρ c), (h c).2⟩)
    (Cert.KernelIdeal.Named.run_named m ρ)

end Cert.KernelIdeal.Result

end
-- ==== Proof.Scalars.lean ====
/- The float words the last step of both programs meets, as the reals they denote, and the one law that
   joins the two sides there: the kernel multiplies by a quarter where the reference divides by four, and
   on the extended reals these agree everywhere, the infinities included (division by a nonzero real is
   the product with its reciprocal). -/
import Idealize.ShloMosaic.PureOps.Ideal

noncomputable section

namespace Cert.Hand.Scalars

open Idealize.ShloMosaic

/-- The word of `0.25` denotes the real `1/4`. -/
theorem ofBits_quarter : Ideal.ofBits .f32 0x3E800000#32 = ((1 / 4 : ℝ) : EReal) := by
  simp [Ideal.ofBits, Ideal.ieee, -EReal.coe_mul]; norm_num

/-- The word of `4.0` denotes the real `4`. -/
theorem ofBits_four : Ideal.ofBits .f32 0x40800000#32 = ((4 : ℝ) : EReal) := by
  simp [Ideal.ofBits, Ideal.ieee, -EReal.coe_mul]; norm_num

/-- A product with the quarter is the quotient by four, for every extended real. -/
theorem mul_quarter (x : EReal) :
    x * Ideal.ofBits .f32 0x3E800000#32 = Ideal.div x (Ideal.ofBits .f32 0x40800000#32) := by
  rw [ofBits_quarter, ofBits_four, Ideal.div_coe (by norm_num : (4 : ℝ) ≠ 0)]

end Cert.Hand.Scalars

end
-- ==== Proof.Bridge.lean ====
/- The reference's result term, at the extended reals, is the kernel's function of the four arrays. Both
   gather the table's rows at the same start indices and add the products into zeros at the same row ids with
   the same gather and scatter records. They differ in two places only: the reference forms `weight · row`
   where the kernel forms `row · weight` (the product of extended reals commutes), and the reference ends
   `(e + 3 s) / 4` where the kernel ends `(e + 3 s) · ¼` (equal on every extended real). -/
import proofs.«182069_j59090160058391_1_alg».proof.Defs
import proofs.«182069_j59090160058391_1_alg».proof.Proof.Gen.ReferenceIdeal
import proofs.«182069_j59090160058391_1_alg».proof.Proof.KernelValue
import proofs.«182069_j59090160058391_1_alg».proof.Proof.Scalars
import Idealize.ShloMosaic.Lib.Pipeline.Value
import Idealize.ShloMosaic.Lib.ValueIdx

noncomputable section

namespace Cert.Hand.Bridge

open Cert.ReferenceIdeal Cert.ReferenceIdeal.Gen
open Idealize.ShloMosaic Idealize.ShloMosaic.TcCoe Idealize.ShloMosaic.ValueIdx

/-- The last step: the quotient by four of `e + 3 s` is the kernel's product with a quarter, entry by entry. -/
theorem combine_eq (h : S_.BroadcastsInDim S100000x128 (![] : Fin 0 → Fin S100000x128.rank))
    (a s : FVec Ideal S100000x128 .f32) :
    Host.divf (addf a (mulf (broadcastInDim S100000x128 ![] h (constant S_ .f32 0x40400000#32)) s))
        (broadcastInDim S100000x128 ![] h (constant S_ .f32 0x40800000#32))
      = Cert.KernelIdeal.Combine.combine (F := Ideal) a s := by
  funext i
  show Ideal.div (a i + Ideal.ofBits .f32 0x40400000#32 * s i) (Ideal.ofBits .f32 0x40800000#32)
     = (a i + Ideal.ofBits .f32 0x40400000#32 * s i) * Ideal.ofBits .f32 0x3E800000#32
  exact (Cert.Hand.Scalars.mul_quarter _).symm

/-- The product step: the weights broadcast along the lanes times the gathered rows is the kernel's
    `weighted`, entry by entry, the factors exchanged. -/
theorem weighted_eq (h : S1600000x1.BroadcastsInDim S1600000x128 (![0, 1] : Fin 2 → Fin S1600000x128.rank))
    (x : FVec Ideal S1600000x1 .f32) (g : FVec Ideal S1600000x128 .f32) :
    mulf (broadcastInDim S1600000x128 ![0, 1] h x) g = Cert.KernelIdeal.Weighted.weighted (F := Ideal) g x := by
  funext i
  show broadcastInDim S1600000x128 ![0, 1] h x i * g i
     = g i * x (Cert.KernelIdeal.Weighted.rowIdx ⟨(i 0).val, idx2_lt0 i⟩)
  rw [mul_comm]
  refine congrArg (fun z => g i * z) ?_
  refine broadcastInDim_apply _ h x i _ (fun a => ?_)
  match a with
  | ⟨0, _⟩ => show (i 0).val = if (1600000 : Nat) = 1 then 0 else (i 0).val; rw [if_neg (by decide)]
  | ⟨1, _⟩ => show (0 : Nat) = if (1 : Nat) = 1 then 0 else (i 1).val; rw [if_pos rfl]

/-- The two programs print one gather record … -/
theorem gather_rec : gather_S100000x128_S1600000x1_S1600000x128_1_0_n_n_0_1_1128
    = Cert.KernelIdeal.gather_S100000x128_S1600000x1_S1600000x128_1_0_n_n_0_1_1128 := rfl
/-- … and one scatter record. -/
theorem scatter_rec : scatter_S100000x128_S1600000x1_S1600000x128_1_0_0_1
    = Cert.KernelIdeal.scatter_S100000x128_S1600000x1_S1600000x128_1_0_0_1 := rfl

/-- The reference's whole term is the kernel's `result` of the same four arrays. -/
theorem reference_eq (emb : FVec Ideal S100000x128 .f32) (vals : FVec Ideal S1600000 .f32) (rows cols : IVec S1600000 32) :
    Host.divf (addf emb (mulf (broadcastInDim S100000x128 ![] bcast_S_S100000x128 (constant S_ .f32 0x40400000#32)) (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 rows) (mulf (broadcastInDim S1600000x128 ![0, 1] bcast_S1600000x1_S1600000x128_0_1 (broadcastInDim S1600000x1 ![0] bcast_S1600000_S1600000x1_0 vals)) (Host.gather gather_S100000x128_S1600000x1_S1600000x128_1_0_n_n_0_1_1128 emb (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))))) (broadcastInDim S100000x128 ![] bcast_S_S100000x128 (constant S_ .f32 0x40800000#32))
      = Cert.KernelIdeal.Result.result (F := Ideal) emb vals rows cols := by
  refine (combine_eq _ emb _).trans ?_
  rw [weighted_eq, gather_rec, scatter_rec]

end Cert.Hand.Bridge

end
-- ==== Proof.lean ====
/- The certificate of the five claims. The kernel's program gathers the embedding table's rows at the column
   ids, multiplies each gathered row by its edge's weight in a first tiled region, adds the products into zeros
   at the row ids on the host, and in a second tiled region forms `(e + 3 s) · ¼` of the table and those sums;
   the reference does the same on the host alone, with `weight · row` and `(e + 3 s) / 4`. Over the extended
   reals the two results are one function of the four arrays, entry by entry (the product commutes; a quotient
   by four is a product with a quarter), so no finiteness of the inputs is used.
   The frames of the two kernel programs are the generated ones; the reference's frame is its generated run
   with the result dropped; the idealization rewrote nothing, so `preserves` is trivial. The kernel's value
   is read off its run boundary by boundary (Proof/KernelValue.lean, over Proof/Combine.lean,
   Proof/Weighted.lean and Proof/KernelLaunch.lean), and Proof/Bridge.lean identifies the reference's term
   with it. -/
import proofs.«182069_j59090160058391_1_alg».proof.Defs
import proofs.«182069_j59090160058391_1_alg».proof.Proof.Gen.Kernel
import proofs.«182069_j59090160058391_1_alg».proof.Proof.Gen.Kernel.Skeleton
import proofs.«182069_j59090160058391_1_alg».proof.Proof.Gen.Kernel.Launch
import proofs.«182069_j59090160058391_1_alg».proof.Proof.Gen.Kernel.Points
import proofs.«182069_j59090160058391_1_alg».proof.Proof.Gen.Kernel.Frame
import proofs.«182069_j59090160058391_1_alg».proof.Proof.Gen.KernelIdeal
import proofs.«182069_j59090160058391_1_alg».proof.Proof.Gen.KernelIdeal.Skeleton
import proofs.«182069_j59090160058391_1_alg».proof.Proof.Gen.KernelIdeal.Launch
import proofs.«182069_j59090160058391_1_alg».proof.Proof.Gen.KernelIdeal.Points
import proofs.«182069_j59090160058391_1_alg».proof.Proof.Gen.KernelIdeal.Frame
import proofs.«182069_j59090160058391_1_alg».proof.Proof.Gen.ReferenceIdeal
import proofs.«182069_j59090160058391_1_alg».proof.Proof.Gen.Pre_finite_inputs
import proofs.«182069_j59090160058391_1_alg».proof.Proof.Gen.ReferenceIdeal.Run
import proofs.«182069_j59090160058391_1_alg».proof.Proof.KernelValue
import proofs.«182069_j59090160058391_1_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arrays both programs end with the result array at the kernel's
    function `result` of them: the kernel by its run read back, the reference by its run and the bridge. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.Hand.Bridge.reference_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
